-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S4096x4096 : Shape := ⟨2, ![4096, 4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_

variable [Facts]

def fn {F : FTy → Type} [FloatOps F] (main_arg0 : FVec F S8192x4096 .f32) (main_arg1 : FVec F S4096x4096 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  main_v8
-- ==== Kernel.lean ====
abbrev S8192x4096 : Shape := ⟨2, ![8192, 4096]⟩
abbrev S4096x4096 : Shape := ⟨2, ![4096, 4096]⟩
abbrev S512x4096 : Shape := ⟨2, ![512, 4096]⟩
abbrev S512 : Shape := ⟨1, ![512]⟩
abbrev S512x1 : Shape := ⟨2, ![512, 1]⟩
abbrev S1024x1024 : Shape := ⟨2, ![1024, 1024]⟩
abbrev S2048x1024 : Shape := ⟨2, ![2048, 1024]⟩
abbrev S1024x2048 : Shape := ⟨2, ![1024, 2048]⟩

abbrev nBuf : Space → Nat
  | .hbm => 4
  | .vmem => 11
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096x4096, .bf16⟩
  | .hbm, ⟨3, _⟩ => ⟨S8192x4096, .f32⟩
  | .local _ .vmem, ⟨0, _⟩ => ⟨S512x4096, .f32⟩
  | .local _ .vmem, ⟨1, _⟩ => ⟨S512x4096, .f32⟩
  | .local _ .vmem, ⟨2, _⟩ => ⟨S512x4096, .bf16⟩
  | .local _ .vmem, ⟨3, _⟩ => ⟨S512x4096, .bf16⟩
  | .local _ .vmem, ⟨4, _⟩ => ⟨S1024x1024, .f32⟩
  | .local _ .vmem, ⟨5, _⟩ => ⟨S1024x1024, .f32⟩
  | .local _ .vmem, ⟨6, _⟩ => ⟨S2048x1024, .bf16⟩
  | .local _ .vmem, ⟨7, _⟩ => ⟨S2048x1024, .bf16⟩
  | .local _ .vmem, ⟨8, _⟩ => ⟨S1024x2048, .f32⟩
  | .local _ .vmem, ⟨9, _⟩ => ⟨S1024x2048, .f32⟩
  | .local _ .vmem, ⟨10, _⟩ => ⟨S1024x2048, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc1_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨3, ![8, 2, 4], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1024x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S2048x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1024x2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

class Facts₀ : Prop where
  inb_S512x4096_S512x4096_0_0 : ∀ a, (![0, 0] : Fin 2 → Nat) a + S512x4096.size a ≤ S512x4096.size a
  h_S512x4096 : 0 < S512x4096.numel
  reduces_S512x4096_S512 : S512x4096.Reduces [1] S512
  shapeCasts_S512_S512x1 : S512.ShapeCasts S512x1
  broadcasts_S512x1_S512x4096 : S512x1.Broadcasts S512x4096
  bitsLt_bf16_f32 : FTy.bits .bf16 < FTy.bits .f32
  packedbf16_S512x4096_S512x4096_0_0 : (Rect.unit (s := S512x4096) ![0, 0] S512x4096.size inb_S512x4096_S512x4096_0_0).PackedRows (EltTy.packing .bf16)
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S1024x1024_S1024x1024_0_0 : ∀ a, (![0, 0] : Fin 2 → Nat) a + S1024x1024.size a ≤ S1024x1024.size a
  h_S1024x1024 : 0 < S1024x1024.numel
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  dot_S1024x1024_S2048x1024_S1024x2048_1_1_0_0_n_n_wf : DotDims.WF S1024x1024 S2048x1024 S1024x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S4096x4096.size a
  hwx0_0 : ∀ i : grid0.Coords, EltTy.bits .f32 = 32 ∨ (Rect.block (s := S4096x4096) S512x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x4096.size a ≤ S4096x4096.size a
  hwx0_1 : ∀ i : grid0.Coords, EltTy.bits .bf16 = 32 ∨ (Rect.block (s := S4096x4096) S512x4096.size (cc0_transform_1 i) (hinb0_1 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x1024.size a ≤ S8192x4096.size a
  hwx1_0 : ∀ i : grid1.Coords, EltTy.bits .f32 = 32 ∨ (Rect.block (s := S8192x4096) S1024x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x1024.size a ≤ S4096x4096.size a
  hwx1_1 : ∀ i : grid1.Coords, EltTy.bits .bf16 = 32 ∨ (Rect.block (s := S4096x4096) S2048x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x2048.size a ≤ S8192x4096.size a
  hwx1_2 : ∀ i : grid1.Coords, EltTy.bits .f32 = 32 ∨ (Rect.block (s := S8192x4096) S1024x2048.size (cc1_transform_2 i) (hinb1_2 i)).WholeWords (EltTy.packing .f32)

variable [Facts₀]

def dot_S1024x1024_S2048x1024_S1024x2048_1_1_0_0_n_n : DotDims S1024x1024 S2048x1024 S1024x2048 where
  lhsContracting := [1]
  rhsContracting := [1]
  lhsNonContracting := [0]
  rhsNonContracting := [0]
  lhsBatch := []
  rhsBatch := []
  wf := dot_S1024x1024_S2048x1024_S1024x2048_1_1_0_0_n_n_wf

abbrev win0_0 : Pipeline.Window sig grid0 :=
  Pipeline.Window.ofSpec (Memref.whole main_arg1) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S512x4096.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_arg0) S1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S2048x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v1) S1024x2048.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S8192x4096 : Shape := ⟨2, ![8192, 4096]⟩
abbrev S4096x4096 : Shape := ⟨2, ![4096, 4096]⟩
abbrev S_ : Shape := ⟨0, ![]⟩
abbrev S4096 : Shape := ⟨1, ![4096]⟩
abbrev S4096x1 : Shape := ⟨2, ![4096, 1]⟩

abbrev nBuf : Space → Nat
  | .hbm => 28
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096x4096, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S_, .f32⟩
  | .hbm, ⟨7, _⟩ => ⟨S4096x1, .f32⟩
  | .hbm, ⟨8, _⟩ => ⟨S4096x1, .f32⟩
  | .hbm, ⟨9, _⟩ => ⟨S_, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x4096, .f32⟩
  | .hbm, ⟨14, _⟩ => ⟨S4096x4096, .f32⟩
  | .hbm, ⟨15, _⟩ => ⟨S4096x4096, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S4096x4096, .f32⟩
  | .hbm, ⟨20, _⟩ => ⟨S4096x4096, .f32⟩
  | .hbm, ⟨21, _⟩ => ⟨S_, .f32⟩
  | .hbm, ⟨22, _⟩ => ⟨S4096x4096, .f32⟩
  | .hbm, ⟨23, _⟩ => ⟨S4096x4096, .f32⟩
  | .hbm, ⟨24, _⟩ => ⟨S4096x4096, .f32⟩
  | .hbm, ⟨25, _⟩ => ⟨S4096x4096, .f32⟩
  | .hbm, ⟨26, _⟩ => ⟨S4096x4096, .f32⟩
  | .hbm, ⟨27, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_call0_v0 : Ref sig .tc := ⟨.hbm, 10, rfl⟩
abbrev main_call0_v1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_cst_3 : Ref sig .tc := ⟨.hbm, 17, rfl⟩
abbrev main_call2_v0 : Ref sig .tc := ⟨.hbm, 18, rfl⟩
abbrev main_call2_v1 : Ref sig .tc := ⟨.hbm, 19, rfl⟩
abbrev main_call2_v2 : Ref sig .tc := ⟨.hbm, 20, rfl⟩
abbrev main_call2_v3 : Ref sig .tc := ⟨.hbm, 21, rfl⟩
abbrev main_call2_v4 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩

abbrev nD : Nat := 1
abbrev τ : Topo := Topo.v7x

variable {F : FTy → Type} [FloatOps F]

class Facts₀ : Prop where
  reducesTo_S4096x4096_S4096_d1 : S4096x4096.ReducesTo [1] S4096
  h_S_ : 0 < S_.numel
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x4096_0_1 : S4096x1.BroadcastsInDim S4096x4096 (![0, 1] : Fin 2 → Fin S4096x4096.rank)
  bcast_S_S4096x4096 : S_.BroadcastsInDim S4096x4096 (![] : Fin 0 → Fin S4096x4096.rank)
  transposes_S4096x4096_S4096x4096_1_0 : S4096x4096.Transposes [1, 0] S4096x4096
  dot_S8192x4096_S4096x4096_S8192x4096_1_0_0_1_n_n_wf : DotDims.WF S8192x4096 S4096x4096 S8192x4096 [1] [0] [0] [1] [] []

variable [Facts₀]

def dot_S8192x4096_S4096x4096_S8192x4096_1_0_0_1_n_n : DotDims S8192x4096 S4096x4096 S8192x4096 where
  lhsContracting := [1]
  rhsContracting := [0]
  lhsNonContracting := [0]
  rhsNonContracting := [1]
  lhsBatch := []
  rhsBatch := []
  wf := dot_S8192x4096_S4096x4096_S8192x4096_1_0_0_1_n_n_wf

class Facts : Prop extends Facts₀ where

variable [Facts]
-- ==== Proof.KI.Quant.lean ====
/-
  The first launch: the row-wise ternary quantizer. Its grid has eight points; point t stages rows
  512 t .. 512 t + 511 of the weight matrix (all 4096 columns), the body computes from that block alone
  the quantized block (each row's scale is the mean of the row's absolute values, floored at 1e-5; an entry
  is round-half-even of entry / scale, clamped to [-1, 1], times the scale) and stores it whole into the
  output's staging buffer, which the pipeline writes back at every point.
  Stated here, for any float instance: what the body leaves in the output buffer as a function of the
  staged input block (`quantOut`), the body's triple, the proof data of the launch and its body obligation.
-/
import proofs.«140886_j3169685865296_1_alg».proof.Proof.Gen.KernelIdeal.Launch
import proofs.«140886_j3169685865296_1_alg».proof.Proof.Gen.KernelIdeal.Skeleton
import proofs.«140886_j3169685865296_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Block `t` of window `w` of the first launch, read off the array as the launch finds it. -/
def qblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The whole 512 x 4096 staging rectangle: the body's one load and one store go through it. -/
abbrev qrect : Rect S512x4096 := Rect.unit (s := S512x4096) ![0, 0] S512x4096.size inb_S512x4096_S512x4096_0_0

/-- What the body leaves in the output's staging buffer: its single whole-buffer store of the quantized block. -/
def quantOut (x0 : Vec F S512x4096 .f32) : Vec F S512x4096 .bf16 :=
  View.canon [⟨qrect, k0_pay1 (View.ld x0 qrect)⟩]

theorem quant_cover (p0 : Vec F S512x4096 .bf16) (y : S512x4096.Idx) :
    ∃ pc ∈ ([⟨qrect, p0⟩] : List (View.Piece (Elt F) S512x4096 .bf16)), y ∈ pc.1.set :=
  View.cover_of_tiled [⟨qrect, p0⟩] S512x4096.size (by rfl) y

set_option maxHeartbeats 1000000 in
/-- The quantizer's body on whole staging buffers: the input's kept, the output's left at `quantOut` of the input's. -/
theorem sound_quant (c : Dev nD) (E : Set ℕ) (i : grid0.Coords) (arg1 : Memref sig .tc .vmem S512x4096 .f32) (harg1 : arg1.IsWhole)
    (arg2 : Memref sig .tc .vmem S512x4096 .bf16) (harg2 : arg2.IsWhole)
    (x0 : Vec F S512x4096 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (quantOut x0)) -∗ K ⟨⟩))
      ⊢ wp frame (wpE (defs₀ (F := F)) Variants.none c none) E (cc0__quant_kernel i arg1 harg1 arg2 harg2) K := by
  simp only [cc0__quant_kernel_eq_skeleton]; unfold cc0__quant_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (quant_cover _)

/-- The first launch's proof data on core `c`: the arrays as found; after the body the input's buffer at its block,
    the output's at `quantOut` of it; the invariant the scoped rest and the generator register; nothing owed. -/
def qdat (c : Dev nD) : Dat τ (Elt F) Unit ℕ (UR sig nD τ) ℕ cfg0 c where
  A w := V c (Pipeline.arrRef spec0 w)
  after w t := match w with
    | ⟨0, _⟩ => qblk V c 0 t
    | ⟨1, _⟩ => quantOut (qblk V c 0 t)
  Φ _ := Pipeline.ΦA spec0 c
  q _ := fullShare
  owed _ := 0

theorem qdat_A (c : Dev nD) (w : Fin cfg0.W) : (qdat V c).A w = V c (Pipeline.arrRef spec0 w) := by
  dsimp only [qdat]
theorem qdat_after0 (c : Dev nD) (t : Fin cfg0.N) : (qdat V c).after 0 t = qblk V c 0 t := by dsimp only [qdat]
theorem qdat_after1 (c : Dev nD) (t : Fin cfg0.N) : (qdat V c).after 1 t = quantOut (qblk V c 0 t) := by dsimp only [qdat]

/-- The input window is fetched at every point, so its buffer holds the point's block when the body runs. -/
theorem qdat_before0 (c : Dev nD) (t : Fin cfg0.N) (d) : (qdat V c).before 0 t d = qblk V c 0 t :=
  ((qdat V c).before_in_eq_fetched 0 rfl (fun _ => rfl) (fun _ _ _ => rfl)
      (fun t => by rw [qdat_after0]; unfold Dat.blockOf qblk; rw [qdat_A]; try rfl) t d).trans
    (by unfold Dat.fetched Dat.blockOf qblk; rw [qdat_A]; try rfl)

/-- The body obligation of the first launch. -/
theorem qbody (c : Dev nD) : BodyObligation (qdat (F := F) V c) (defs₀ (F := F)) Variants.none () Set.univ := fun t => by
  rw [bigSep_W0, bigSep_W0]
  show iprop((qdat V c).Φ t.castSucc ∗ (qdat V c).owesAt () t.castSucc
      ∗ (∃ d, owns (c : Thread nD τ) (st0_0 t) fullShare ((qdat V c).before 0 t d))
      ∗ (∃ d, owns (c : Thread nD τ) (st0_1 t) fullShare ((qdat V c).before 1 t d)))
    ⊢ wp frame (wpE (defs₀ (F := F)) Variants.none c none) Set.univ (bodyAt0 t) (fun _ =>
      iprop((qdat V c).Φ t.succ ∗ (qdat V c).owesAt () t.succ
        ∗ owns (c : Thread nD τ) (st0_0 t) fullShare ((qdat V c).after 0 t)
        ∗ owns (c : Thread nD τ) (st0_1 t) fullShare ((qdat V c).after 1 t)))
  unfold bodyAt0
  simp only [qdat_before0]
  rw [show (qdat V c).Φ t.succ = (qdat V c).Φ t.castSucc from rfl,
    show (qdat V c).owesAt () t.succ = (qdat V c).owesAt () t.castSucc from rfl,
    qdat_after0, qdat_after1]
  iintro ⟨HΦ, Ho, ⟨%d0, H0⟩, ⟨%d1, H1⟩⟩
  iapply (sound_quant c Set.univ _ _ _ _ _ (qblk V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

end

end Cert.KernelIdeal.Hand

end
-- ==== Proof.KI.Matmul.lean ====
/-
  The second launch: the blocked product. Its grid is 8 x 2 x 4 (row tile i, column tile j, contraction step k; the
  point number is 8 i + 4 j + k, so k = point mod 4). Point (i, j, k) stages the 1024 x 1024 block (i, k) of the
  activations and the 2048 x 1024 block (j, k) of the quantized weights; the body zeroes a 1024 x 2048 scratch
  accumulator when k = 0, adds to it the product of the two blocks contracted along their second axes, and copies the
  accumulator into the output's staging buffer, which the pipeline writes back to block (i, j) at k = 3 only.
  Stated here, for any float instance: what the accumulator holds after each point, by recursion on the point
  (`accAt`), the invariant that carries it from point to point, the launch's proof data and its body obligation.
-/
import proofs.«140886_j3169685865296_1_alg».proof.Proof.Gen.KernelIdeal.Launch
import proofs.«140886_j3169685865296_1_alg».proof.Proof.Gen.KernelIdeal.Skeleton
import proofs.«140886_j3169685865296_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Block `t` of window `w` of the second launch, read off the array as the launch finds it. -/
def mblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The body's branch condition: the contraction step is the first. -/
abbrev kfirst (i : grid1.Coords) : Prop :=
  (Scalar.cmpi .ne (Scalar.extui (Scalar.cmpi .eq (BitVec.ofNat 32 (i 2).val) 0#32)) 0#32) = 1#1

/-- It holds exactly at the points that are multiples of four. -/
theorem kfirst_iff : ∀ t : Fin cfg1.N, kfirst (grid1.coords t) ↔ t.val % 4 = 0 :=
  (by decide +kernel : ∀ t : Fin grid1.N, kfirst (grid1.coords t) ↔ t.val % 4 = 0)

/-- THE ACCUMULATOR after point `n`: at a first contraction step the product of the point's blocks added to the zero
    fill, at a later one added to what the point before left. -/
def accAt (c : Dev nD) : (n : ℕ) → n < cfg1.N → Vec F S1024x2048 .f32
  | 0, hn => k1_pay2 (mblk V c 0 ⟨0, hn⟩) (mblk V c 1 ⟨0, hn⟩) k1_pay1
  | n + 1, hn =>
    if (n + 1) % 4 = 0 then k1_pay2 (mblk V c 0 ⟨n + 1, hn⟩) (mblk V c 1 ⟨n + 1, hn⟩) k1_pay1
    else k1_pay2 (mblk V c 0 ⟨n + 1, hn⟩) (mblk V c 1 ⟨n + 1, hn⟩) (accAt c n (Nat.lt_of_succ_lt hn))

theorem accAt_first (c : Dev nD) (t : Fin cfg1.N) (h : t.val % 4 = 0) :
    accAt V c t.val t.isLt = k1_pay2 (mblk V c 0 t) (mblk V c 1 t) k1_pay1 := by
  obtain ⟨n, hn⟩ := t
  cases n with
  | zero => rfl
  | succ n => exact (if_pos h).trans rfl

theorem accAt_later (c : Dev nD) (t : Fin cfg1.N) (h : ¬t.val % 4 = 0) :
    accAt V c t.val t.isLt = k1_pay2 (mblk V c 0 t) (mblk V c 1 t)
      (accAt V c (t.val - 1) (Nat.lt_of_le_of_lt (Nat.sub_le _ _) t.isLt)) := by
  obtain ⟨n, hn⟩ := t
  cases n with
  | zero => exact absurd (Nat.zero_mod _) h
  | succ n => exact (if_neg h).trans rfl

/-- The scratch accumulator as a whole-buffer memref. -/
abbrev mscr : Memref sig .tc .vmem S1024x2048 .f32 := Memref.whole cc1_scratch0

/-- The first launch's four staging buffers, idle during the second launch, each at some contents. -/
def idleStaging (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg1_1), ((c : Thread nD τ).loc cc0_stg1_1) ↦{fullShare} f))

/-! ### Loads and stores through the whole-buffer rectangle -/

section WholeRect
variable {Val : EltTy → Type} [∀ e, Nonempty (Val e)] {S : Shape} {e : EltTy} {sg : RefSig} {κ : Kind} {sp : Space}

/-- A list of pieces whose head is the whole-buffer rectangle covers every index. -/
private theorem cover_unit_zero_cons {off : Fin S.rank → Nat} (h : off = fun _ => 0) (inb : ∀ a, off a + S.size a ≤ S.size a)
    (w : S.Idx → Val e) (L : List (View.Piece Val S e)) (y : S.Idx) :
    ∃ p ∈ ((⟨Rect.unit off S.size inb, w⟩ : View.Piece Val S e) :: L), y ∈ p.1.set :=
  ⟨_, List.mem_cons_self, View.mem_set_unit_zero h inb y⟩

/-- A whole-buffer load after a last whole-buffer store reads that store's payload. -/
private theorem readCov_cons_unit_zero (v : View sg κ sp S e) {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  rw [View.readCov_eq_canon_ld v _ _ (cover_unit_zero_cons h inb w L), View.canon_cons_unit_zero h inb w L]
  exact View.ld_unit_zero h inb w

/-- The contents after a last whole-buffer store read as that store's payload. -/
private theorem read_writes_cons_unit_zero (v : View sg κ sp S e) (f : v.ty.Contents Val) {off : Fin S.rank → Nat} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  rw [View.read_writes_eq_canon v f _ (cover_unit_zero_cons h inb w L)]
  exact View.canon_cons_unit_zero h inb w L

/-- A whole-buffer load reads the contents. -/
private theorem readAt_unit_zero (v : View sg κ sp S e) (f : v.ty.Contents Val) {off : Fin S.rank → Nat} (h : off = fun _ => 0)
    (inb : ∀ a, off a + S.size a ≤ S.size a) :
    v.readAt Val (Rect.unit off S.size inb).toLoadRect f = v.read Val f :=
  (View.readAt_eq_ld v f _).trans (View.ld_unit_zero h inb _)

end WholeRect

/-- The zero offsets of the whole-buffer rectangle, as a constant function. -/
private theorem hz2 : (![0, 0] : Fin 2 → Nat) = fun _ => 0 := funext fun a => by fin_cases a <;> rfl

set_option maxHeartbeats 1000000 in
/-- The body at a first contraction step, on whole staging buffers: the accumulator, held at anything, is zero-filled,
    the product of the two staged blocks is added to it, and the output's buffer is left at a copy of it. -/
theorem sound_first (c : Dev nD) (E : Set ℕ) (i : grid1.Coords) (hc : kfirst i)
    (arg3 : Memref sig .tc .vmem S1024x1024 .f32) (harg3 : arg3.IsWhole)
    (arg4 : Memref sig .tc .vmem S2048x1024 .bf16) (harg4 : arg4.IsWhole)
    (arg5 : Memref sig .tc .vmem S1024x2048 .f32) (harg5 : arg5.IsWhole)
    (arg6 : Memref sig .tc .vmem S1024x2048 .f32) (harg6 : arg6.IsWhole)
    (x0 : Vec F S1024x1024 .f32) (w0 : Vec F S2048x1024 .bf16) (K : PUnit → sProp 𝕄) :
    iprop(owns (c : Thread nD τ) arg3 fullShare x0 ∗ owns (c : Thread nD τ) arg4 fullShare w0
        ∗ (∃ d, owns (c : Thread nD τ) arg5 fullShare d) ∗ (∃ d, owns (c : Thread nD τ) arg6 fullShare d)
        ∗ (iprop(owns (c : Thread nD τ) arg3 fullShare x0 ∗ owns (c : Thread nD τ) arg4 fullShare w0
            ∗ owns (c : Thread nD τ) arg5 fullShare (k1_pay2 x0 w0 k1_pay1)
            ∗ owns (c : Thread nD τ) arg6 fullShare (k1_pay2 x0 w0 k1_pay1)) -∗ K ⟨⟩))
      ⊢ wp frame (wpE (defs₀ (F := F)) Variants.none c none) E (cc1__matmul_kernel i arg3 harg3 arg4 harg4 arg5 harg5 arg6 harg6) K := by
  simp only [cc1__matmul_kernel_eq_skeleton]; unfold cc1__matmul_kernel_skel
  unfold owns
  iintro ⟨⟨%f0, %hf0, H0⟩, ⟨%f1, %hf1, H1⟩, ⟨%d2, %f2, -, H2⟩, ⟨%d3, %f3, -, H3⟩, Hk⟩
  subst hf0; subst hf1
  sl_exec (disch := exact hc)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    sl_unfold_words
    refine (read_writes_cons_unit_zero (S := S1024x2048) _ _ hz2 _ _ _).trans ?_
    refine (readCov_cons_unit_zero (S := S1024x2048) _ hz2 _ _ _).trans ?_
    rw [readAt_unit_zero (S := S1024x1024) _ _ hz2, readAt_unit_zero (S := S2048x1024) _ _ hz2,
      readCov_cons_unit_zero (S := S1024x2048) _ hz2]
  iexists _; isplitr
  swap; · iexact H3
  ipureintro
  sl_unfold_words
  refine (read_writes_cons_unit_zero (S := S1024x2048) _ _ hz2 _ _ _).trans ?_
  rw [readAt_unit_zero (S := S1024x1024) _ _ hz2, readAt_unit_zero (S := S2048x1024) _ _ hz2,
    readCov_cons_unit_zero (S := S1024x2048) _ hz2]

set_option maxHeartbeats 1000000 in
/-- The body at a later contraction step, on whole staging buffers: the product of the two staged blocks is added to
    what the accumulator holds, and the output's buffer is left at a copy of it. -/
theorem sound_later (c : Dev nD) (E : Set ℕ) (i : grid1.Coords) (hc : ¬kfirst i)
    (arg3 : Memref sig .tc .vmem S1024x1024 .f32) (harg3 : arg3.IsWhole)
    (arg4 : Memref sig .tc .vmem S2048x1024 .bf16) (harg4 : arg4.IsWhole)
    (arg5 : Memref sig .tc .vmem S1024x2048 .f32) (harg5 : arg5.IsWhole)
    (arg6 : Memref sig .tc .vmem S1024x2048 .f32) (harg6 : arg6.IsWhole)
    (x0 : Vec F S1024x1024 .f32) (w0 : Vec F S2048x1024 .bf16) (a0 : Vec F S1024x2048 .f32) (K : PUnit → sProp 𝕄) :
    iprop(owns (c : Thread nD τ) arg3 fullShare x0 ∗ owns (c : Thread nD τ) arg4 fullShare w0
        ∗ (∃ d, owns (c : Thread nD τ) arg5 fullShare d) ∗ owns (c : Thread nD τ) arg6 fullShare a0
        ∗ (iprop(owns (c : Thread nD τ) arg3 fullShare x0 ∗ owns (c : Thread nD τ) arg4 fullShare w0
            ∗ owns (c : Thread nD τ) arg5 fullShare (k1_pay2 x0 w0 a0)
            ∗ owns (c : Thread nD τ) arg6 fullShare (k1_pay2 x0 w0 a0)) -∗ K ⟨⟩))
      ⊢ wp frame (wpE (defs₀ (F := F)) Variants.none c none) E (cc1__matmul_kernel i arg3 harg3 arg4 harg4 arg5 harg5 arg6 harg6) K := by
  simp only [cc1__matmul_kernel_eq_skeleton]; unfold cc1__matmul_kernel_skel
  unfold owns
  iintro ⟨⟨%f0, %hf0, H0⟩, ⟨%f1, %hf1, H1⟩, ⟨%d2, %f2, -, H2⟩, ⟨%f3, %hf3, H3⟩, Hk⟩
  subst hf0; subst hf1; subst hf3
  sl_exec (disch := exact hc)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    sl_unfold_words
    refine (read_writes_cons_unit_zero (S := S1024x2048) _ _ hz2 _ _ _).trans ?_
    refine (readCov_cons_unit_zero (S := S1024x2048) _ hz2 _ _ _).trans ?_
    rw [readAt_unit_zero (S := S1024x1024) _ _ hz2, readAt_unit_zero (S := S2048x1024) _ _ hz2,
      readAt_unit_zero (S := S1024x2048) _ _ hz2]
  iexists _; isplitr
  swap; · iexact H3
  ipureintro
  sl_unfold_words
  refine (read_writes_cons_unit_zero (S := S1024x2048) _ _ hz2 _ _ _).trans ?_
  rw [readAt_unit_zero (S := S1024x1024) _ _ hz2, readAt_unit_zero (S := S2048x1024) _ _ hz2,
    readAt_unit_zero (S := S1024x2048) _ _ hz2]

/-- The launch's scoped rest and generator register, with the accumulator singled out at some contents. -/
theorem phiA_split (c : Dev nD) :
    (Pipeline.ΦA spec1 c : sProp 𝕄) ⊢ iprop(idleStaging (F := F) c ∗ (∃ d, owns (c : Thread nD τ) mscr fullShare d) ∗ (∃ r, prngReg c r)) := by
  unfold Pipeline.ΦA idleStaging; rw [scopedRest1_eq]; simp only [owns_whole]
  iintro ⟨⟨A, B, C, D, S⟩, R⟩
  isplitl [A B C D]
  · isplitl [A]; · iexact A
    isplitl [B]; · iexact B
    isplitl [C]; · iexact C
    iexact D
  isplitl [S]; · iexact S
  iexact R

theorem phiA_join (c : Dev nD) :
    iprop(idleStaging (F := F) c ∗ (∃ d, owns (c : Thread nD τ) mscr fullShare d) ∗ (∃ r, prngReg c r)) ⊢ (Pipeline.ΦA spec1 c : sProp 𝕄) := by
  unfold Pipeline.ΦA idleStaging; rw [scopedRest1_eq]; simp only [owns_whole]
  iintro ⟨⟨A, B, C, D⟩, S, R⟩
  isplitl [A B C D S]
  · isplitl [A]; · iexact A
    isplitl [B]; · iexact B
    isplitl [C]; · iexact C
    isplitl [D]; · iexact D
    iexact S
  iexact R

/-- The invariant before point `n`: before the first the launch's own; afterwards the accumulator at what the point
    before left. -/
def mPhi (c : Dev nD) : (n : ℕ) → n ≤ cfg1.N → sProp 𝕄
  | 0, _ => Pipeline.ΦA spec1 c
  | n + 1, hn => iprop(idleStaging (F := F) c ∗ owns (c : Thread nD τ) mscr fullShare (accAt V c n hn) ∗ (∃ r, prngReg c r))

theorem mPhi_zero (c : Dev nD) (n : ℕ) (h : n ≤ cfg1.N) (hz : n = 0) : mPhi V c n h = Pipeline.ΦA spec1 c := by
  subst hz; rfl

theorem mPhi_succ (c : Dev nD) (n : ℕ) (hn : n < cfg1.N) :
    mPhi V c (n + 1) hn = iprop(idleStaging (F := F) c ∗ owns (c : Thread nD τ) mscr fullShare (accAt V c n hn) ∗ (∃ r, prngReg c r)) := rfl

theorem mPhi_pos (c : Dev nD) (n : ℕ) (h : n ≤ cfg1.N) (hz : n ≠ 0) :
    mPhi V c n h = iprop(idleStaging (F := F) c ∗ owns (c : Thread nD τ) mscr fullShare (accAt V c (n - 1) (by omega)) ∗ (∃ r, prngReg c r)) := by
  cases n with
  | zero => exact absurd rfl hz
  | succ n => rfl

/-- The second launch's proof data on core `c`. -/
def mdat (c : Dev nD) : Dat τ (Elt F) Unit ℕ (UR sig nD τ) ℕ cfg1 c where
  A w := V c (Pipeline.arrRef spec1 w)
  after w t := match w with
    | ⟨0, _⟩ => mblk V c 0 t
    | ⟨1, _⟩ => mblk V c 1 t
    | ⟨2, _⟩ => accAt V c t.val t.isLt
  Φ t := mPhi V c t.val (Nat.le_of_lt_succ t.isLt)
  q _ := fullShare
  owed _ := 0

theorem mdat_A (c : Dev nD) (w : Fin cfg1.W) : (mdat V c).A w = V c (Pipeline.arrRef spec1 w) := by
  dsimp only [mdat]
theorem mdat_after0 (c : Dev nD) (t : Fin cfg1.N) : (mdat V c).after 0 t = mblk V c 0 t := by dsimp only [mdat]
theorem mdat_after1 (c : Dev nD) (t : Fin cfg1.N) : (mdat V c).after 1 t = mblk V c 1 t := by dsimp only [mdat]
theorem mdat_after2 (c : Dev nD) (t : Fin cfg1.N) : (mdat V c).after 2 t = accAt V c t.val t.isLt := by dsimp only [mdat]

/-- The two input windows are fetched at every point: each one's buffer holds the point's block when the body runs. -/
theorem mdat_before0 (c : Dev nD) (t : Fin cfg1.N) (d) : (mdat V c).before 0 t d = mblk V c 0 t :=
  ((mdat V c).before_in_eq_fetched 0 rfl (fun _ => rfl) (fun _ _ _ => rfl)
      (fun t => by rw [mdat_after0]; unfold Dat.blockOf mblk; rw [mdat_A]; try rfl) t d).trans
    (by unfold Dat.fetched Dat.blockOf mblk; rw [mdat_A]; try rfl)

theorem mdat_before1 (c : Dev nD) (t : Fin cfg1.N) (d) : (mdat V c).before 1 t d = mblk V c 1 t :=
  ((mdat V c).before_in_eq_fetched 1 rfl (fun _ => rfl) (fun _ _ _ => rfl)
      (fun t => by rw [mdat_after1]; unfold Dat.blockOf mblk; rw [mdat_A]; try rfl) t d).trans
    (by unfold Dat.fetched Dat.blockOf mblk; rw [mdat_A]; try rfl)

/-- Before any point the invariant holds the accumulator at some contents. -/
theorem mPhi_some (c : Dev nD) (n : ℕ) (h : n ≤ cfg1.N) :
    mPhi V c n h ⊢ iprop(idleStaging (F := F) c ∗ (∃ d, owns (c : Thread nD τ) mscr fullShare d) ∗ (∃ r, prngReg c r)) := by
  by_cases h0 : n = 0
  · rw [mPhi_zero V c n h h0]; exact phiA_split c
  · rw [mPhi_pos V c n h h0]
    iintro ⟨A, S, R⟩
    isplitl [A]; · iexact A
    isplitl [S]; · iexists _; iexact S
    iexact R

set_option maxHeartbeats 1000000 in
/-- The body obligation of the second launch. -/
theorem mbody (c : Dev nD) : BodyObligation (mdat (F := F) V c) (defs₀ (F := F)) Variants.none () Set.univ := fun t => by
  rw [bigSep_W1, bigSep_W1]
  show iprop((mdat V c).Φ t.castSucc ∗ (mdat V c).owesAt () t.castSucc
      ∗ (∃ d, owns (c : Thread nD τ) (st1_0 t) fullShare ((mdat V c).before 0 t d))
      ∗ (∃ d, owns (c : Thread nD τ) (st1_1 t) fullShare ((mdat V c).before 1 t d))
      ∗ (∃ d, owns (c : Thread nD τ) (st1_2 t) fullShare ((mdat V c).before 2 t d)))
    ⊢ wp frame (wpE (defs₀ (F := F)) Variants.none c none) Set.univ (bodyAt1 t) (fun _ =>
      iprop((mdat V c).Φ t.succ ∗ (mdat V c).owesAt () t.succ
        ∗ owns (c : Thread nD τ) (st1_0 t) fullShare ((mdat V c).after 0 t)
        ∗ owns (c : Thread nD τ) (st1_1 t) fullShare ((mdat V c).after 1 t)
        ∗ owns (c : Thread nD τ) (st1_2 t) fullShare ((mdat V c).after 2 t)))
  unfold bodyAt1
  simp only [mdat_before0, mdat_before1]
  rw [show (mdat V c).Φ t.castSucc = mPhi V c t.val (Nat.le_of_lt t.isLt) from rfl,
    show (mdat V c).Φ t.succ = mPhi V c (t.val + 1) t.isLt from rfl, mPhi_succ,
    show (mdat V c).owesAt () t.succ = (mdat V c).owesAt () t.castSucc from rfl,
    mdat_after0, mdat_after1, mdat_after2]
  by_cases h : t.val % 4 = 0
  · rw [accAt_first V c t h]
    iintro ⟨HP, Ho, ⟨%d0, H0⟩, ⟨%d1, H1⟩, ⟨%d2, H2⟩⟩
    ihave HQ := (mPhi_some V c t.val (Nat.le_of_lt t.isLt)) $$ HP
    icases HQ with ⟨HA, ⟨%a, HS⟩, HR⟩
    iapply (sound_first c Set.univ (grid1.coords t) ((kfirst_iff t).mpr h) _ _ _ _ _ _ _ _ (mblk V c 0 t) (mblk V c 1 t) _)
    isplitl [H0]; · iexact H0
    isplitl [H1]; · iexact H1
    isplitl [H2]; · iexists _; iexact H2
    isplitl [HS]; · iexists _; iexact HS
    iintro ⟨H0, H1, H2, HS⟩
    isplitl [HA HS HR]
    · isplitl [HA]; · iexact HA
      isplitl [HS]; · iexact HS
      iexact HR
    isplitl [Ho]; · iexact Ho
    isplitl [H0]; · iexact H0
    isplitl [H1]; · iexact H1
    iexact H2
  · have h0 : t.val ≠ 0 := fun e => h (by rw [e])
    rw [accAt_later V c t h, mPhi_pos V c t.val _ h0]
    iintro ⟨⟨HA, HS, HR⟩, Ho, ⟨%d0, H0⟩, ⟨%d1, H1⟩, ⟨%d2, H2⟩⟩
    iapply (sound_later c Set.univ (grid1.coords t) (fun hk => h ((kfirst_iff t).mp hk)) _ _ _ _ _ _ _ _ (mblk V c 0 t) (mblk V c 1 t)
      (accAt V c (t.val - 1) (Nat.lt_of_le_of_lt (Nat.sub_le _ _) t.isLt)) _)
    isplitl [H0]; · iexact H0
    isplitl [H1]; · iexact H1
    isplitl [H2]; · iexists _; iexact H2
    isplitl [HS]; · iexact HS
    iintro ⟨H0, H1, H2, HS⟩
    isplitl [HA HS HR]
    · isplitl [HA]; · iexact HA
      isplitl [HS]; · iexact HS
      iexact HR
    isplitl [Ho]; · iexact Ho
    isplitl [H0]; · iexact H0
    isplitl [H1]; · iexact H1
    iexact H2

/-- What the launch hands the region is the invariant before the first point. -/
theorem mhin (c : Dev nD) : Pipeline.ΦA spec1 c ⊢ (mdat V c).Φ 0 := by
  rw [show (mdat V c).Φ 0 = mPhi V c 0 (Nat.zero_le _) from rfl, mPhi_zero V c 0 _ rfl]

/-- After the last point the invariant gives the launch's own back: the accumulator's contents are forgotten. -/
theorem mhout (c : Dev nD) : (mdat V c).Φ (Fin.last cfg1.N) ⊢ Pipeline.ΦA spec1 c := by
  have hN : cfg1.N = 64 := N_1
  rw [show (mdat V c).Φ (Fin.last cfg1.N) = mPhi V c cfg1.N (Nat.le_refl _) from rfl,
    mPhi_pos V c cfg1.N _ (by rw [hN]; decide)]
  refine .trans ?_ (phiA_join (F := F) c)
  iintro ⟨A, S, R⟩
  isplitl [A]; · iexact A
  isplitl [S]; · iexists _; iexact S
  iexact R

end

end Cert.KernelIdeal.Hand

end
-- ==== Proof.KI.Run.lean ====
/-
  The whole program: @main is the quantizer's launch followed by the product's launch, nothing between them.
  The buffer contents at the three boundaries: at launch the memory `m`; after the first launch the quantized
  weights' array at what the eight write-backs leave and every other buffer untouched; after the second launch the
  result array at what its sixteen write-backs leave. Each launch is entered from "every unscoped buffer held at
  the boundary's contents", splits its windows' arrays out of that, runs, and puts them back.
  Stated: every weakly fair execution terminates and every unscoped buffer ends at the last boundary's contents
  (`run_main`), hence the argument arrays end as launched (`frame`), and what the result array ends holding
  (`final_result`) in terms of the two launches' proof data.
-/
import proofs.«140886_j3169685865296_1_alg».proof.Proof.Gen.KernelIdeal.Launch
import proofs.«140886_j3169685865296_1_alg».proof.Proof.Gen.KernelIdeal.Skeleton
import proofs.«140886_j3169685865296_1_alg».proof.Proof.Gen.KernelIdeal.Points
import proofs.«140886_j3169685865296_1_alg».proof.Proof.KI.Quant
import proofs.«140886_j3169685865296_1_alg».proof.Proof.KI.Matmul
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at the boundaries -/

/-- At launch. -/
abbrev W0 : Dev nD → Valuation τ sig (Elt F) := fun c b => m (c, b)
abbrev V0 : (c : Dev nD) → (b : Ref sig .tc) → Buf (Elt F) ((c : Thread nD τ).loc b) := fun c b => W0 m c b
/-- After the quantizer's launch: its arrays at what the pipeline leaves, the rest untouched. -/
def W1 (c : Dev nD) : Valuation τ sig (Elt F) :=
  Pipeline.withArrays spec0 c (W0 m c) fun w => (qdat (V0 m) c).arrAt w cfg0.N
theorem W1_arr (c : Dev nD) (w : Fin cfg0.W) :
    W1 m c (Proc.devRef .tc (Pipeline.arrRef spec0 w)) = (qdat (V0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
abbrev V1 : (c : Dev nD) → (b : Ref sig .tc) → Buf (Elt F) ((c : Thread nD τ).loc b) := fun c b => W1 m c b
theorem hF0 (c : Dev nD) (w : Fin cfg0.W) : (qdat (V0 m) c).arrAt w cfg0.N = V1 m c (Pipeline.arrRef spec0 w) :=
  (W1_arr m c w).symm
theorem hrest0 (c : Dev nD) : ∀ b, b ∉ Finset.univ.image (Pipeline.arrRef spec0) → V1 m c b = V0 m c b :=
  fun b hb => W1_of_ne m c b fun w e => hb (Finset.mem_image.mpr ⟨w, Finset.mem_univ _, e⟩)

/-- After the product's launch. -/
def W2 (c : Dev nD) : Valuation τ sig (Elt F) :=
  Pipeline.withArrays spec1 c (W1 m c) fun w => (mdat (V1 m) c).arrAt w cfg1.N
theorem W2_arr (c : Dev nD) (w : Fin cfg1.W) :
    W2 m c (Proc.devRef .tc (Pipeline.arrRef spec1 w)) = (mdat (V1 m) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m c (Proc.devRef .tc b) = W1 m c (Proc.devRef .tc b) := by
  unfold W2; exact Pipeline.withArrays_of_ne spec1 c _ _ b hb
abbrev V2 : (c : Dev nD) → (b : Ref sig .tc) → Buf (Elt F) ((c : Thread nD τ).loc b) := fun c b => W2 m c b
theorem hF1 (c : Dev nD) (w : Fin cfg1.W) : (mdat (V1 m) c).arrAt w cfg1.N = V2 m c (Pipeline.arrRef spec1 w) :=
  (W2_arr m c w).symm
theorem hrest1 (c : Dev nD) : ∀ b, b ∉ Finset.univ.image (Pipeline.arrRef spec1) → V2 m c b = V1 m c b :=
  fun b hb => W2_of_ne m c b fun w e => hb (Finset.mem_image.mpr ⟨w, Finset.mem_univ _, e⟩)

/-! ## What the boundaries hold at the buffers the claims read -/

/-- The weights are an input of the first launch only: the second finds them as launched. -/
theorem V1_arg1 (c : Dev nD) : V1 m c main_arg1 = m ((c : Thread nD τ).loc main_arg1) :=
  (W1_arr m c 0).trans (((qdat (V0 m) c).arrAt_in 0 rfl _).trans (qdat_A (V0 m) c 0))
/-- The activations are no array of the first launch. -/
theorem V1_arg0 (c : Dev nD) : V1 m c main_arg0 = m ((c : Thread nD τ).loc main_arg0) :=
  W1_of_ne m c main_arg0 (by decide)
/-- The quantized weights as the second launch finds them. -/
theorem V1_v0 (c : Dev nD) : V1 m c main_v0 = (qdat (V0 m) c).arrAt 1 cfg0.N := W1_arr m c 1
/-- The activations end as launched: an input of the second launch. -/
theorem W2_arg0 (c : Dev nD) : W2 m c (Proc.devRef .tc main_arg0) = m ((c : Thread nD τ).loc main_arg0) :=
  (W2_arr m c 0).trans ((((mdat (V1 m) c).arrAt_in 0 rfl _).trans (mdat_A (V1 m) c 0)).trans (V1_arg0 m c))
/-- The weights end as launched: no array of the second launch. -/
theorem W2_arg1 (c : Dev nD) : W2 m c (Proc.devRef .tc main_arg1) = m ((c : Thread nD τ).loc main_arg1) :=
  (W2_of_ne m c main_arg1 (by decide)).trans (V1_arg1 m c)
/-- The result array ends at what the second launch's write-backs leave. -/
theorem W2_v1 (c : Dev nD) : W2 m c (Proc.devRef .tc main_v1) = (mdat (V1 m) c).arrAt 2 cfg1.N := W2_arr m c 2

/-! ## The proof data family and the thread state -/

abbrev adm : (p : Fin 2) → (pcfgs (F := F) p).Adm := fun p => (cfgs p).toPCfg_adm
/-- Each launch's proof data at its entry contents. -/
def pdats : (p : Fin 2) → (c : Dev nD) → Dat τ (Elt F) Unit ℕ (UR sig nD τ) ℕ (Pipeline.pin (pcfgs (F := F)) adm p) c
  | ⟨0, _⟩ => fun c => qdat (V0 m) c
  | ⟨1, _⟩ => fun c => mdat (V1 m) c
abbrev 𝒱₀ : Variants := Variants.none
abbrev L : GSem nD τ sig → Finset Unit := fun _ => ∅
abbrev lv : GSem nD τ sig → Unit → ℕ := fun _ _ => 0
/-- What rides beside the buffers: the generator register at some state, and the core owing nothing. -/
abbrev R (c : Dev nD) : sProp 𝕄 := iprop((∃ r, prngReg c r) ∗ ∃ W, owes (c : Thread nD τ) (0 : CellTallies nD τ sig Unit) W)
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W2 m c) ∗ ∃ r, prngReg c r)

/-! ## The launches as segments -/

set_option backward.isDefEq.respectTransparency.types false in
/-- The quantizer's launch: entered from every unscoped buffer at `W0`, left at `W1`. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (qbody (V0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (V0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V0 m c) (V1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The product's launch: entered from every unscoped buffer at `W1`, left at `W2`; its invariant is the
    accumulator's, made of the launch's own at entry (`mhin`) and giving it back at exit (`mhout`). -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (mbody (V1 m) c).loose
  hwaits := Pipeline.hwaits_of_owed_zero _ _ _ _ L lv 1 fun _ _ => rfl
  pre c := iprop(StableHlo.held (c : Thread nD τ) (Pipeline.ucRefs τ sig) (W1 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = (mdat (V1 m) c).Φ 0 from rfl]
    have key := mhin (V1 m) c
    unfold Pipeline.ΦA at key
    iintro ⟨Hp, -, Hr⟩
    iapply key
    isplitl [Hr]; · iexact Hr
    iexact Hp
  hout c := by
    rw [Pipeline.ownSems0_none, show (pdats m 1 c).Φ (Fin.last _) = (mdat (V1 m) c).Φ (Fin.last cfg1.N) from rfl]
    have key := mhout (V1 m) c
    unfold Pipeline.ΦA at key
    iintro Hphi
    ihave H := key $$ Hphi
    icases H with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V1 m c) (V2 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as the two launches, and the run -/

abbrev segs : List (Pipeline.Seg (pcfgs (F := F)) adm (pdats m) () defs₀ 𝒱₀ L lv) :=
  [ .region (reg0 m), .region (reg1 m) ]

theorem main_run (c : Dev nD) : main (F := F) c = Pipeline.Seg.run (segs m) :=
  main_segs adm (pdats m) () 𝒱₀ L lv (reg0 m) (reg1 m) c

set_option backward.isDefEq.respectTransparency.types false in
/-- From any memory with zero counters every weakly fair execution of @main terminates, and every unscoped buffer
    ends at the last boundary's contents. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W2 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m c b)
    (hfin := fun c s' => by
      iintro ⟨⟨Hh, -⟩, HSI⟩
      unfold StableHlo.held
      imodintro
      iapply (pointsTo_read_all (Pipeline.ucRefs τ sig) (fun b => (((c : Thread nD τ)).1, b)) (W2 m c) s')
      isplitl [Hh] <;> iassumption)
    (hQ := fun s h => h)

/-- The argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨(h c _ (mem_uc main_arg0 (by decide))).trans (W2_arg0 m c),
     (h c _ (mem_uc main_arg1 (by decide))).trans (W2_arg1 m c)⟩) (run_main m ρ)

/-- The same run, with the result array's final contents named. -/
theorem run_result : θ_run defs (onTc (τ := τ) (main (F := F))) ⟨m, fun _ => 0, ρ⟩ (fun r => ∀ c : Dev nD,
      r.2.mem ((c.tc : Thread nD τ).loc main_v1) = (mdat (V1 m) c).arrAt 2 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨(h c _ (mem_uc main_v1 (by decide))).trans (W2_v1 m c),
     (h c _ (mem_uc main_arg0 (by decide))).trans (W2_arg0 m c),
     (h c _ (mem_uc main_arg1 (by decide))).trans (W2_arg1 m c)⟩) (run_main m ρ)

end Cert.KernelIdeal.Hand

end
-- ==== Proof.Spec.lean ====
/-
  The mathematics both programs compute, over the extended reals, stated once and about no program.
  `rowScale w r` is the scale of row r of the weight matrix: the mean of the row's 4096 absolute values
  (the sum divided by the float 4096), floored at the float nearest 1e-5. `quant w` is the ternary quantization:
  entry (r, c) is round-half-even of w(r, c) / scale(r), clamped to [-1, 1], times scale(r). `mm x q` is the
  product of x with the transpose of q: entry (p, n) is the sum over k of x(p, k) q(n, k).
  The float literals stay as their words; both programs carry the same words.
-/
import Idealize.ShloMosaic.PureOps.Ideal
import Idealize.ShloMosaic.Lib.ValueIdx

noncomputable section

open scoped BigOperators

namespace Cert.Spec

open Idealize.ShloMosaic Idealize.ShloMosaic.ValueIdx

/-- The weight matrix's shape, and the activations' (also the result's). -/
abbrev SW : Shape := ⟨2, ![4096, 4096]⟩
abbrev SX : Shape := ⟨2, ![8192, 4096]⟩

/-- The floor of the scale, the row length, and the clamp's two ends, as the programs' literal words denote them. -/
def cEps : EReal := Ideal.ofBits .f32 0x3727C5AC#32
def cLen : EReal := Ideal.ofBits .f32 0x45800000#32
def cLo : EReal := Ideal.ofBits .f32 0xBF800000#32
def cHi : EReal := Ideal.ofBits .f32 0x3F800000#32

/-- The sum of row `r`'s absolute values. -/
def rowAbsSum (w : SW.Idx → EReal) (r : Fin 4096) : EReal :=
  ∑ c : Fin 4096, max (w (ix2 r c)) (-(w (ix2 r c)))

/-- Row `r`'s scale. -/
def rowScale (w : SW.Idx → EReal) (r : Fin 4096) : EReal :=
  max cEps (Ideal.div (rowAbsSum w r) cLen)

/-- The quantized weight at row `r`, column `c`. -/
def quantAt (w : SW.Idx → EReal) (r c : Fin 4096) : EReal :=
  min cHi (max cLo (Ideal.liftRound Ideal.roundHalfEven (Ideal.div (w (ix2 r c)) (rowScale w r)))) * rowScale w r

/-- The quantized weight matrix. -/
def quant (w : SW.Idx → EReal) : SW.Idx → EReal := fun i => quantAt w (i 0) (i 1)

/-- The product with the transpose at row `p`, column `n`. -/
def mmAt (x : SX.Idx → EReal) (q : SW.Idx → EReal) (p : Fin 8192) (n : Fin 4096) : EReal :=
  ∑ k : Fin 4096, x (ix2 p k) * q (ix2 n k)

/-- The product of `x` with the transpose of `q`. -/
def mm (x : SX.Idx → EReal) (q : SW.Idx → EReal) : SX.Idx → EReal := fun i => mmAt x q (i 0) (i 1)

end Cert.Spec

end
-- ==== Proof.KI.QuantValue.lean ====
/-
  What the quantized-weights array holds after the first launch, over the extended reals: the ternary
  quantization of the weight matrix, entry by entry. Point t writes back rows 512 t .. 512 t + 511, all columns;
  a row's scale depends on that row alone, and the whole row lies in one block, so each written block is the
  matching block of the one whole-matrix function; the eight blocks cover the matrix.
-/
import proofs.«140886_j3169685865296_1_alg».proof.Proof.KI.Quant
import proofs.«140886_j3169685865296_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.HandValue

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)

/-! ## The payload at an index -/

/-- A column [512, 1] broadcast along the rows to [512, 4096] reads, at (p, q), the column's entry (p, 0). -/
theorem qbcast_col (v : S512x1.Idx → EReal) (h : S512x1.Broadcasts S512x4096) (p : Fin 512) (q : Fin 4096) :
    broadcastTo S512x4096 v h (ix2 p q) = v (ix2 p (0 : Fin 1)) := by
  refine broadcastTo_apply v h (ix2 p q) (ix2 p (0 : Fin 1)) fun ax => ?_
  match ax with
  | ⟨0, _⟩ => rfl
  | ⟨1, _⟩ => rfl

/-- A vector [512] reshaped to a column [512, 1] reads, at (p, 0), the vector's entry p. -/
theorem qcast_col (v : S512.Idx → EReal) (h : S512.ShapeCasts S512x1) (p : Fin 512) :
    shapeCast S512x1 v h (ix2 p (0 : Fin 1)) = v (ix1 p) := by
  refine shapeCast_apply v h (ix2 p (0 : Fin 1)) (ix1 p) ?_
  rw [Shape.rowMajor_val_one, Shape.rowMajor_val_two]
  show p.val = p.val * 1 + 0
  omega

/-- The sum over the columns of a [512, 4096] block, read at row p, is the sum over the 4096 columns of row p. -/
theorem qrow_sum (v : FVec Ideal S512x4096 .f32) (acc : BitVec FTy.f32.bits) (h : S512x4096.Reduces [1] S512)
    (hφ : FKind.Formats .f32) (hacc : acc = FKind.add.neutral .f32 hφ) (p : Fin 512) :
    multiReduction .add [1] S512 v acc h hφ hacc (ix1 p) = ∑ k : Fin 4096, v (ix2 p k) := by
  refine (Ideal.multiReduction_add_single v acc h hφ hacc (ix1 p)).trans ?_
  refine Finset.sum_congr rfl fun k _ => congrArg v ?_
  funext a
  apply Fin.ext
  match a with
  | ⟨0, _⟩ => rfl
  | ⟨1, _⟩ => rfl

/-- Rounding and the absolute value of a vector, read at an index. -/
theorem qroundeven_idx {s : Shape} {φ : FTy} (a : FVec Ideal s φ) (i : s.Idx) :
    roundeven a i = Ideal.liftRound Ideal.roundHalfEven (a i) := rfl
theorem qabsf_idx {s : Shape} {φ : FTy} (a : FVec Ideal s φ) (i : s.Idx) : absf a i = max (a i) (-(a i)) := rfl

/-- Row p's scale computed from a block: the mean of the row's absolute values, floored. -/
def qblkScale (x0 : S512x4096.Idx → EReal) (p : Fin 512) : EReal :=
  max Cert.Spec.cEps (Ideal.div (∑ k : Fin 4096, max (x0 (ix2 p k)) (-(x0 (ix2 p k)))) Cert.Spec.cLen)

/-- The body's payload at (p, q): the entry over row p's scale, rounded half to even, clamped, times the scale. -/
theorem qpay_apply (x0 : Vec Ideal S512x4096 .f32) (p : Fin 512) (q : Fin 4096) :
    k0_pay1 (F := Ideal) x0 (ix2 p q)
      = min Cert.Spec.cHi (max Cert.Spec.cLo (Ideal.liftRound Ideal.roundHalfEven (Ideal.div (x0 (ix2 p q)) (qblkScale x0 p))))
          * qblkScale x0 p := by
  unfold k0_pay1
  simp only [truncf_apply, mulf_apply, minimumf_apply, maximumf_apply, broadcast_apply, divf_apply, qbcast_col,
    qroundeven_idx, qcast_col]
  rw (config := { transparency := .default }) [qrow_sum]
  simp only [qabsf_idx]
  rfl

/-! ## From a block to the array -/

/-- The payload of a block that is rows 512 T .. 512 T + 511 of a matrix is, entry by entry, the matrix's quantization:
    a row's scale reads the whole row, and the whole row lies in the block. -/
theorem qpay_quant (W : Cert.Spec.SW.Idx → EReal) (x0 : Vec Ideal S512x4096 .f32) (T : Nat)
    (hx : ∀ (p : Fin 512) (q : Fin 4096) (i : Cert.Spec.SW.Idx), (i 0).val = 512 * T + p.val → (i 1).val = q.val →
      x0 (ix2 p q) = W i)
    (j : S512x4096.Idx) (i : Cert.Spec.SW.Idx) (hi0 : (i 0).val = 512 * T + (j 0).val) (hi1 : (i 1).val = (j 1).val) :
    k0_pay1 (F := Ideal) x0 j = Cert.Spec.quant W i := by
  have hj : j = ix2 (n0 := 512) (n1 := 4096) (j 0) (j 1) := eq_ix2 j
  refine (congrArg (k0_pay1 (F := Ideal) x0) hj).trans ((qpay_apply x0 (j 0) (j 1)).trans ?_)
  have hs : qblkScale x0 (j 0) = Cert.Spec.rowScale W (i 0) := by
    unfold qblkScale Cert.Spec.rowScale Cert.Spec.rowAbsSum
    have hsum : (∑ k : Fin 4096, max (x0 (ix2 (j 0) k)) (-(x0 (ix2 (j 0) k))))
        = ∑ k : Fin 4096, max (W (ix2 (i 0) k)) (-(W (ix2 (i 0) k))) :=
      Finset.sum_congr rfl fun k _ => by rw [hx (j 0) k (ix2 (i 0) k) hi0 rfl]
    rw [hsum]
  have he : x0 (ix2 (j 0) (j 1)) = W (ix2 (i 0) (i 1)) := hx (j 0) (j 1) (ix2 (i 0) (i 1)) hi0 hi1
  rw [hs, he]
  rfl

theorem qhz : (![0, 0] : Fin 2 → Nat) = fun _ => 0 := funext fun a => by fin_cases a <;> rfl

/-- The two windows' index maps, decided over the eight points: point t's block index is (t, 0) in both. -/
theorem qidx_facts : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, _)

section
variable (V : (c : Dev nD) → (b : Ref sig .tc) → Buf (Elt Ideal) ((c : Thread nD τ).loc b))

/-- What point t writes back is block t of the quantization of the weights as found. -/
theorem qflushed_eq (c : Dev nD) (t : Fin cfg0.N) :
    (qdat (F := Ideal) V c).flushed 1 t
      = ((cfg0.win 1).blk t).view.read (Elt Ideal) (Cert.Spec.quant (V c main_arg1)) := by
  show (cfg0.win 1).cut (grid0.coords t) ((qdat V c).after 1 t) = _
  rw [qdat_after1]
  unfold quantOut
  rw [View.canon_unit_zero qhz]
  simp only [View.ld_unit_zero (S := S512x4096) qhz]
  obtain ⟨e0, e1, e2, e3⟩ := qidx_facts t
  funext j
  refine qpay_quant (V c main_arg1) (qblk V c 0 t) t.val ?_ j (((cfg0.win 1).blk t).view.emb j) ?_ ?_
  · intro p q i h0 h1
    show V c main_arg1 (((cfg0.win 0).blk t).view.emb (ix2 p q)) = V c main_arg1 i
    refine congrArg (V c main_arg1) (funext fun a => Fin.ext ?_)
    match a with
    | ⟨0, _⟩ => show win0_0.index t (0 : Fin 2) * 512 + 1 * p.val = (i 0).val; omega
    | ⟨1, _⟩ => show win0_0.index t (1 : Fin 2) * 4096 + 1 * q.val = (i 1).val; omega
  · show win0_1.index t (0 : Fin 2) * 512 + 1 * (j 0).val = 512 * t.val + (j 0).val; omega
  · show win0_1.index t (1 : Fin 2) * 4096 + 1 * (j 1).val = (j 1).val; omega

/-- An index of the matrix is in point t's block iff each coordinate is in the block's range on its axis. -/
theorem qmem_blk (t : Fin cfg0.N) (i : S4096x4096.Idx) :
    i ∈ ((cfg0.win 1).blk t).view.set ↔ ∀ a : Fin 2, win0_1.index t a * S512x4096.size a ≤ (i a).val
      ∧ (i a).val < win0_1.index t a * S512x4096.size a + S512x4096.size a := by
  show i ∈ ((View.whole main_v0).slice (win0_1.rect t)).set ↔ _
  rw [View.set_slice_whole, Rect.mem_set_unit]
  exact Iff.rfl

/-- Every entry of the matrix is in some point's block: row r is in the block of point r / 512. -/
theorem qcover (i : S4096x4096.Idx) :
    ∃ t : Fin cfg0.N, (cfg0.win 1).flush t = true ∧ i ∈ ((cfg0.win 1).blk t).view.set := by
  have hi0 : (i 0).val < 4096 := (i 0).isLt
  have hi1 : (i 1).val < 4096 := (i 1).isLt
  have hN : (i 0).val / 512 < grid0.N := by rw [N_0]; omega
  obtain ⟨e0, e1, e2, e3⟩ := qidx_facts ⟨(i 0).val / 512, hN⟩
  refine ⟨⟨(i 0).val / 512, hN⟩, flush0_1 _, ?_⟩
  rw [qmem_blk]
  intro a
  match a with
  | ⟨0, _⟩ =>
    show win0_1.index ⟨(i 0).val / 512, hN⟩ (0 : Fin 2) * 512 ≤ (i 0).val
      ∧ (i 0).val < win0_1.index ⟨(i 0).val / 512, hN⟩ (0 : Fin 2) * 512 + 512
    rw [e2]; show (i 0).val / 512 * 512 ≤ (i 0).val ∧ (i 0).val < (i 0).val / 512 * 512 + 512; omega
  | ⟨1, _⟩ =>
    show win0_1.index ⟨(i 0).val / 512, hN⟩ (1 : Fin 2) * 4096 ≤ (i 1).val
      ∧ (i 1).val < win0_1.index ⟨(i 0).val / 512, hN⟩ (1 : Fin 2) * 4096 + 4096
    rw [e3]; omega

end

/-- After the first launch's eight write-backs the quantized-weights array is `Spec.quant` of the weights as found. -/
theorem quant_final (V : (c : Dev nD) → (b : Ref sig .tc) → Buf (Elt Ideal) ((c : Thread nD τ).loc b)) (c : Dev nD) :
    (qdat (F := Ideal) V c).arrAt 1 cfg0.N = Cert.Spec.quant (V c main_arg1) :=
  (qdat (F := Ideal) V c).arrAt_eq_of_cover 1 (Cert.Spec.quant (V c main_arg1))
    (fun t _ => qflushed_eq V c t) (fun i => qcover i)

end Cert.KernelIdeal.HandValue

end
-- ==== Proof.KI.MatmulValue.lean ====
/-
  What the result array holds after the second launch, over the extended reals: the product of the activations
  with the transpose of the quantized weights. Block (i, j) of the result is written back at the fourth contraction
  step; by then the accumulator is zero plus the four partial products over the column ranges
  0..1023, 1024..2047, 2048..3071, 3072..4095, which together are the one sum over all 4096 columns
  (addition of extended reals is associative and commutative; no finiteness is used).
-/
import proofs.«140886_j3169685865296_1_alg».proof.Proof.KI.Matmul
import proofs.«140886_j3169685865296_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.HandValue

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)

namespace Product

/-! ## The body's two stored values at an entry -/

/-- The product's left operand is read at the output's row: axis 0 of the left operand is its one free axis. -/
theorem lhs_mm_0 (i : S1024x2048.Idx) (q : dot_S1024x1024_S2048x1024_S1024x2048_1_1_0_0_n_n.contr.Idx) :
    (dot_S1024x1024_S2048x1024_S1024x2048_1_1_0_0_n_n.lhsIdx i q 0).val = (i 0).val := by
  unfold DotDims.lhsIdx
  rw [dif_neg (show ¬(0 : Fin S1024x1024.rank) ∈ dot_S1024x1024_S2048x1024_S1024x2048_1_1_0_0_n_n.lhsBatch by decide), dif_pos (show (0 : Fin S1024x1024.rank) ∈ dot_S1024x1024_S2048x1024_S1024x2048_1_1_0_0_n_n.lhsNonContracting by decide)]
  rfl
/-- Axis 1 of the left operand is the contracted one. -/
theorem lhs_mm_1 (i : S1024x2048.Idx) (q : dot_S1024x1024_S2048x1024_S1024x2048_1_1_0_0_n_n.contr.Idx) :
    (dot_S1024x1024_S2048x1024_S1024x2048_1_1_0_0_n_n.lhsIdx i q 1).val = (q ⟨0, by decide⟩).val :=
  dot_S1024x1024_S2048x1024_S1024x2048_1_1_0_0_n_n.lhsIdx_val_of_single rfl i q
/-- The right operand is read at the output's column: axis 0 of the right operand is its one free axis, the output's axis 1. -/
theorem rhs_mm_0 (i : S1024x2048.Idx) (q : dot_S1024x1024_S2048x1024_S1024x2048_1_1_0_0_n_n.contr.Idx) :
    (dot_S1024x1024_S2048x1024_S1024x2048_1_1_0_0_n_n.rhsIdx i q 0).val = (i 1).val := by
  unfold DotDims.rhsIdx
  rw [dif_neg (show ¬(0 : Fin S2048x1024.rank) ∈ dot_S1024x1024_S2048x1024_S1024x2048_1_1_0_0_n_n.rhsBatch by decide), dif_pos (show (0 : Fin S2048x1024.rank) ∈ dot_S1024x1024_S2048x1024_S1024x2048_1_1_0_0_n_n.rhsNonContracting by decide)]
  rfl
/-- Axis 1 of the right operand is the contracted one. -/
theorem rhs_mm_1 (i : S1024x2048.Idx) (q : dot_S1024x1024_S2048x1024_S1024x2048_1_1_0_0_n_n.contr.Idx) :
    (dot_S1024x1024_S2048x1024_S1024x2048_1_1_0_0_n_n.rhsIdx i q 1).val = (q ⟨0, by decide⟩).val :=
  dot_S1024x1024_S2048x1024_S1024x2048_1_1_0_0_n_n.rhsIdx_val_of_single rfl i q

/-- The product of a 1024 x 1024 block with the transpose of a 2048 x 1024 block, onto a zero start, at an entry. -/
theorem mm_block_apply (x0 : FVec Ideal S1024x1024 .bf16) (w0 : FVec Ideal S2048x1024 .bf16) (p : Fin 1024) (n : Fin 2048) :
    FloatOps.matmul dot_S1024x1024_S2048x1024_S1024x2048_1_1_0_0_n_n none x0 w0 (constant S1024x2048 .f32 0x00000000#32) (ix2 p n)
      = ∑ k : Fin 1024, x0 (ix2 p k) * w0 (ix2 n k) := by
  rw [Ideal.matmul_constant_zero_apply, ← Equiv.sum_comp (ValueIdx.contrEquiv1 dot_S1024x1024_S2048x1024_S1024x2048_1_1_0_0_n_n 1024 rfl rfl).symm]
  refine Finset.sum_congr rfl fun k _ => ?_
  have hk := ValueIdx.contrEquiv1_symm_val dot_S1024x1024_S2048x1024_S1024x2048_1_1_0_0_n_n 1024 rfl rfl k
  have el : dot_S1024x1024_S2048x1024_S1024x2048_1_1_0_0_n_n.lhsIdx (ix2 p n) ((ValueIdx.contrEquiv1 dot_S1024x1024_S2048x1024_S1024x2048_1_1_0_0_n_n 1024 rfl rfl).symm k) = ix2 p k := funext fun a => Fin.ext (by
    match a with
    | ⟨0, _⟩ => exact lhs_mm_0 _ _
    | ⟨1, _⟩ => exact (lhs_mm_1 _ _).trans hk)
  have er : dot_S1024x1024_S2048x1024_S1024x2048_1_1_0_0_n_n.rhsIdx (ix2 p n) ((ValueIdx.contrEquiv1 dot_S1024x1024_S2048x1024_S1024x2048_1_1_0_0_n_n 1024 rfl rfl).symm k) = ix2 n k := funext fun a => Fin.ext (by
    match a with
    | ⟨0, _⟩ => exact rhs_mm_0 _ _
    | ⟨1, _⟩ => exact (rhs_mm_1 _ _).trans hk)
  rw [el, er]

/-- The accumulating store's value at an entry: what the accumulator held plus the blocks' product there. -/
theorem pay2_apply (x0 : FVec Ideal S1024x1024 .f32) (w0 : FVec Ideal S2048x1024 .bf16) (a0 : FVec Ideal S1024x2048 .f32)
    (p : Fin 1024) (n : Fin 2048) :
    k1_pay2 (F := Ideal) x0 w0 a0 (ix2 p n) = a0 (ix2 p n) + ∑ k : Fin 1024, x0 (ix2 p k) * w0 (ix2 n k) := by
  show shapeCast S1024x2048 (addf a0 (matmul dot_S1024x1024_S2048x1024_S1024x2048_1_1_0_0_n_n none (truncf .bf16 x0 bitsLt_bf16_f32)
    (shapeCast S2048x1024 w0 shapeCasts_S2048x1024_S2048x1024) (constant S1024x2048 .f32 0x00000000#32))) shapeCasts_S1024x2048_S1024x2048 (ix2 p n) = _
  rw [shapeCast_self, shapeCast_self, addf_apply]
  exact congrArg (a0 (ix2 p n) + ·) (mm_block_apply _ w0 p n)

/-- The zero fill at an entry. -/
theorem pay1_apply (p : Fin 1024) (n : Fin 2048) : k1_pay1 (F := Ideal) (ix2 p n) = 0 := by
  show shapeCast S1024x2048 (broadcast S1024x2048 (Scalar.ofBits (F := Ideal) .f32 0x00000000#32)) shapeCasts_S1024x2048_S1024x2048 (ix2 p n) = 0
  rw [shapeCast_self]
  exact Ideal.ofBits_zero_f32

/-! ## The blocks the body reads, as parts of the two operand arrays -/

/-- The printed index maps over the grid: at point t the activations' block is (t / 8, t % 4), the weights' block is
    (t / 4 % 2, t % 4), the result's block is (t / 8, t / 4 % 2). -/
theorem idx_facts : ∀ t : Fin cfg1.N, win1_0.index t (0 : Fin 2) = t.val / 8 ∧ win1_0.index t (1 : Fin 2) = t.val % 4
    ∧ win1_1.index t (0 : Fin 2) = t.val / 4 % 2 ∧ win1_1.index t (1 : Fin 2) = t.val % 4
    ∧ win1_2.index t (0 : Fin 2) = t.val / 8 ∧ win1_2.index t (1 : Fin 2) = t.val / 4 % 2 :=
  (by decide +kernel : ∀ t : Fin grid1.N, _)

section
variable (V : (c : Dev nD) → (b : Ref sig .tc) → Buf (Elt Ideal) ((c : Thread nD τ).loc b)) (c : Dev nD)

/-- The activations and the quantized weights as the launch finds them. -/
def arrX : S8192x4096.Idx → EReal := V c main_arg0
def arrQ : S4096x4096.Idx → EReal := V c main_v0

/-- The activations' block and the weights' block at a point. -/
def xblk (t : Fin cfg1.N) : FVec Ideal S1024x1024 .f32 := mblk V c 0 t
def wblk (t : Fin cfg1.N) : FVec Ideal S2048x1024 .bf16 := mblk V c 1 t

/-- Entry (p, k) of the activations' block at point t is the activations' entry (1024 (t / 8) + p, 1024 (t % 4) + k). -/
theorem xblk_apply (t : Fin cfg1.N) (p kk : Fin 1024) (r : Fin 8192) (k : Fin 4096)
    (hr : r.val = 1024 * (t.val / 8) + p.val) (hk : k.val = 1024 * (t.val % 4) + kk.val) :
    xblk V c t (ix2 p kk) = arrX V c (ix2 r k) := by
  obtain ⟨e0, e1, -⟩ := idx_facts t
  show V c main_arg0 (((cfg1.win 0).blk t).view.emb (ix2 p kk)) = V c main_arg0 (ix2 r k)
  refine congrArg (V c main_arg0) (funext fun a => Fin.ext ?_)
  match a with
  | ⟨0, _⟩ => show win1_0.index t (0 : Fin 2) * 1024 + 1 * p.val = r.val; omega
  | ⟨1, _⟩ => show win1_0.index t (1 : Fin 2) * 1024 + 1 * kk.val = k.val; omega

/-- Entry (n, k) of the weights' block at point t is the weights' entry (2048 (t / 4 % 2) + n, 1024 (t % 4) + k). -/
theorem wblk_apply (t : Fin cfg1.N) (n : Fin 2048) (kk : Fin 1024) (cc k : Fin 4096)
    (hc : cc.val = 2048 * (t.val / 4 % 2) + n.val) (hk : k.val = 1024 * (t.val % 4) + kk.val) :
    wblk V c t (ix2 n kk) = arrQ V c (ix2 cc k) := by
  obtain ⟨-, -, e2, e3, -⟩ := idx_facts t
  show V c main_v0 (((cfg1.win 1).blk t).view.emb (ix2 n kk)) = V c main_v0 (ix2 cc k)
  refine congrArg (V c main_v0) (funext fun a => Fin.ext ?_)
  match a with
  | ⟨0, _⟩ => show win1_1.index t (0 : Fin 2) * 2048 + 1 * n.val = cc.val; omega
  | ⟨1, _⟩ => show win1_1.index t (1 : Fin 2) * 1024 + 1 * kk.val = k.val; omega

end

/-! ## The accumulator at the fourth contraction step -/

section
variable (V : (c : Dev nD) → (b : Ref sig .tc) → Buf (Elt Ideal) ((c : Thread nD τ).loc b)) (c : Dev nD)

/-- The accumulating store's value at any entry, by its coordinates. -/
theorem pay2_apply_idx (x0 : FVec Ideal S1024x1024 .f32) (w0 : FVec Ideal S2048x1024 .bf16) (a0 : FVec Ideal S1024x2048 .f32)
    (i : S1024x2048.Idx) :
    k1_pay2 (F := Ideal) x0 w0 a0 i
      = a0 i + ∑ k : Fin 1024, x0 (ix2 (⟨(i 0).val, idx2_lt0 i⟩ : Fin 1024) k) * w0 (ix2 (⟨(i 1).val, idx2_lt1 i⟩ : Fin 2048) k) := by
  obtain ⟨p, n, rfl⟩ : ∃ (p : Fin 1024) (n : Fin 2048), i = ix2 p n := ⟨i 0, i 1, eq_ix2 i⟩
  exact pay2_apply x0 w0 a0 p n

/-- The zero fill at any entry. -/
theorem pay1_apply_idx (i : S1024x2048.Idx) : k1_pay1 (F := Ideal) i = 0 := by
  obtain ⟨p, n, rfl⟩ : ∃ (p : Fin 1024) (n : Fin 2048), i = ix2 p n := ⟨i 0, i 1, eq_ix2 i⟩
  exact pay1_apply p n

/-- What point n adds to the accumulator at an entry: the product of the point's two blocks there (zero past the grid,
    where nothing is read). -/
def addend (n : ℕ) (i : S1024x2048.Idx) : EReal :=
  if h : n < cfg1.N then
    ∑ k : Fin 1024, xblk V c ⟨n, h⟩ (ix2 (⟨(i 0).val, idx2_lt0 i⟩ : Fin 1024) k) * wblk V c ⟨n, h⟩ (ix2 (⟨(i 1).val, idx2_lt1 i⟩ : Fin 2048) k)
  else 0

/-- The accumulator depends on the point's number alone. -/
theorem accAt_congr (n m : ℕ) (hn : n < cfg1.N) (hm : m < cfg1.N) (e : n = m) : accAt V c n hn = accAt V c m hm := by
  subst e; rfl

/-- At point 4 q + 3 the accumulator is zero plus the four addends of the points 4 q, …, 4 q + 3. -/
theorem acc_fold (q : ℕ) (h : 4 * q + 3 < cfg1.N) (i : S1024x2048.Idx) :
    accAt V c (4 * q + 3) h i = 0 + ∑ s ∈ Finset.range (3 + 1), addend V c (4 * q + s) i := by
  have h0 : ∀ (n : ℕ) (hn : n < cfg1.N), n % 4 = 0 →
      accAt V c n hn = k1_pay2 (F := Ideal) (xblk V c ⟨n, hn⟩) (wblk V c ⟨n, hn⟩) (k1_pay1 (F := Ideal)) :=
    fun n hn h0 => accAt_first V c ⟨n, hn⟩ h0
  have hs : ∀ (n : ℕ) (hn : n + 1 < cfg1.N), ¬(n + 1) % 4 = 0 →
      accAt V c (n + 1) hn = k1_pay2 (F := Ideal) (xblk V c ⟨n + 1, hn⟩) (wblk V c ⟨n + 1, hn⟩) (accAt V c n (Nat.lt_of_succ_lt hn)) :=
    fun n hn hne => accAt_later V c ⟨n + 1, hn⟩ hne
  have e := Pipeline.eq_accAt (N := cfg1.N) (α := FVec Ideal S1024x2048 .f32) (fun n hn => accAt V c n hn) 4
    (fun n hn => k1_pay2 (F := Ideal) (xblk V c ⟨n, hn⟩) (wblk V c ⟨n, hn⟩) (k1_pay1 (F := Ideal)))
    (fun n hn acc => k1_pay2 (F := Ideal) (xblk V c ⟨n, hn⟩) (wblk V c ⟨n, hn⟩) acc)
    h0 hs q 3 (by decide) h
  refine (congrFun e i).trans ?_
  refine Pipeline.accAt_add_apply (N := cfg1.N) (ι := S1024x2048.Idx) (β := EReal) _ _ (fun _ => 0) (addend V c) (4 * q) 3
    (fun hb i => ?_) (fun n hn acc i _ _ => ?_) 3 (le_refl _) h i
  · show k1_pay2 (F := Ideal) (xblk V c ⟨4 * q, hb⟩) (wblk V c ⟨4 * q, hb⟩) (k1_pay1 (F := Ideal)) i = 0 + addend V c (4 * q) i
    rw [pay2_apply_idx, pay1_apply_idx, addend, dif_pos hb]
  · show k1_pay2 (F := Ideal) (xblk V c ⟨n, hn⟩) (wblk V c ⟨n, hn⟩) acc i = acc i + addend V c n i
    rw [pay2_apply_idx, addend, dif_pos hn]

end

/-! ## The four partial products are one sum over all 4096 columns -/

/-- A sum over 4096 columns, cut into its four stretches of 1024. -/
theorem sum_four_blocks {M : Type*} [AddCommMonoid M] (f : Fin 4096 → M) :
    ∑ k : Fin 4096, f k
      = ∑ kk : Fin 1024, f ⟨kk.val, by omega⟩ + ∑ kk : Fin 1024, f ⟨1024 + kk.val, by omega⟩
        + ∑ kk : Fin 1024, f ⟨2048 + kk.val, by omega⟩ + ∑ kk : Fin 1024, f ⟨3072 + kk.val, by omega⟩ :=
  calc ∑ k : Fin 4096, f k
      = ∑ k : Fin 3072, f ⟨k.val, by omega⟩ + ∑ kk : Fin 1024, f ⟨3072 + kk.val, by omega⟩ :=
        Fin.sum_univ_add (a := 3072) (b := 1024) f
    _ = ∑ k : Fin 2048, f ⟨k.val, by omega⟩ + ∑ kk : Fin 1024, f ⟨2048 + kk.val, by omega⟩
          + ∑ kk : Fin 1024, f ⟨3072 + kk.val, by omega⟩ :=
        congrArg (· + ∑ kk : Fin 1024, f ⟨3072 + kk.val, by omega⟩)
          (Fin.sum_univ_add (a := 2048) (b := 1024) (fun k : Fin (2048 + 1024) => f ⟨k.val, by omega⟩))
    _ = ∑ kk : Fin 1024, f ⟨kk.val, by omega⟩ + ∑ kk : Fin 1024, f ⟨1024 + kk.val, by omega⟩
          + ∑ kk : Fin 1024, f ⟨2048 + kk.val, by omega⟩ + ∑ kk : Fin 1024, f ⟨3072 + kk.val, by omega⟩ :=
        congrArg (· + ∑ kk : Fin 1024, f ⟨2048 + kk.val, by omega⟩ + ∑ kk : Fin 1024, f ⟨3072 + kk.val, by omega⟩)
          (Fin.sum_univ_add (a := 1024) (b := 1024) (fun k : Fin (1024 + 1024) => f ⟨k.val, by omega⟩))

section
variable (V : (c : Dev nD) → (b : Ref sig .tc) → Buf (Elt Ideal) ((c : Thread nD τ).loc b)) (c : Dev nD)

/-- Point n's addend at entry (p, n') is the partial product of row r of the activations with row cc of the weights over
    the point's stretch of columns, when (r, cc) is where the entry sits in the result and k names the stretch. -/
theorem addend_eq (n : ℕ) (hn : n < cfg1.N) (p : Fin 1024) (nn : Fin 2048) (r : Fin 8192) (cc : Fin 4096)
    (k : Fin 1024 → Fin 4096) (hr : r.val = 1024 * (n / 8) + p.val) (hc : cc.val = 2048 * (n / 4 % 2) + nn.val)
    (hk : ∀ kk : Fin 1024, (k kk).val = 1024 * (n % 4) + kk.val) :
    addend V c n (ix2 p nn) = ∑ kk : Fin 1024, arrX V c (ix2 r (k kk)) * arrQ V c (ix2 cc (k kk)) := by
  rw [addend, dif_pos hn]
  refine Finset.sum_congr rfl fun kk _ => ?_
  exact congrArg₂ (· * ·) (xblk_apply V c ⟨n, hn⟩ p kk r (k kk) hr (hk kk)) (wblk_apply V c ⟨n, hn⟩ nn kk cc (k kk) hc (hk kk))

/-- THE ACCUMULATOR AT A WRITE-BACK POINT, at an entry: the whole row-by-row product. -/
theorem acc_flush_apply (t : Fin cfg1.N) (ht : t.val % 4 = 3) (p : Fin 1024) (nn : Fin 2048) (r : Fin 8192) (cc : Fin 4096)
    (hr : r.val = 1024 * (t.val / 8) + p.val) (hc : cc.val = 2048 * (t.val / 4 % 2) + nn.val) :
    accAt V c t.val t.isLt (ix2 p nn) = ∑ k : Fin 4096, arrX V c (ix2 r k) * arrQ V c (ix2 cc k) := by
  have hN : cfg1.N = 64 := N_1
  have htl : t.val < 64 := hN ▸ t.isLt
  have hq : 4 * (t.val / 4) + 3 < cfg1.N := by omega
  have a0 := addend_eq V c (4 * (t.val / 4)) (by omega) p nn r cc (fun kk => ⟨kk.val, by omega⟩) (by omega) (by omega)
    (fun kk => by show kk.val = _; omega)
  have a1 := addend_eq V c (4 * (t.val / 4) + 1) (by omega) p nn r cc (fun kk => ⟨1024 + kk.val, by omega⟩) (by omega) (by omega)
    (fun kk => by show 1024 + kk.val = _; omega)
  have a2 := addend_eq V c (4 * (t.val / 4) + 2) (by omega) p nn r cc (fun kk => ⟨2048 + kk.val, by omega⟩) (by omega) (by omega)
    (fun kk => by show 2048 + kk.val = _; omega)
  have a3 := addend_eq V c (4 * (t.val / 4) + 3) (by omega) p nn r cc (fun kk => ⟨3072 + kk.val, by omega⟩) (by omega) (by omega)
    (fun kk => by show 3072 + kk.val = _; omega)
  rw [accAt_congr V c t.val (4 * (t.val / 4) + 3) t.isLt hq (by omega), acc_fold V c (t.val / 4) hq]
  simp only [Finset.sum_range_succ, Finset.sum_range_zero, zero_add, add_zero]
  rw [a0, a1, a2, a3]
  exact (sum_four_blocks (fun k => arrX V c (ix2 r k) * arrQ V c (ix2 cc k))).symm

end

/-! ## The blocks written back, and the whole array -/

section
variable (V : (c : Dev nD) → (b : Ref sig .tc) → Buf (Elt Ideal) ((c : Thread nD τ).loc b)) (c : Dev nD)

/-- WHAT A WRITE-BACK POINT WRITES is its block of the product of the activations with the transposed weights. -/
theorem flushed_eq (t : Fin cfg1.N) (hf : (cfg1.win 2).flush t = true) :
    (mdat (F := Ideal) V c).flushed 2 t
      = ((cfg1.win 2).blk t).view.read (Elt Ideal) (Cert.Spec.mm (V c main_arg0) (V c main_v0)) := by
  have ht : t.val % 4 = 3 := (flush1_2 t).mp hf
  obtain ⟨-, -, -, -, e4, e5⟩ := idx_facts t
  show (cfg1.win 2).cut (grid1.coords t) ((mdat (F := Ideal) V c).after 2 t) = _
  rw [mdat_after2]
  refine funext fun (j : S1024x2048.Idx) => ?_
  obtain ⟨p, nn, rfl⟩ : ∃ (p : Fin 1024) (nn : Fin 2048), j = ix2 p nn := ⟨j 0, j 1, eq_ix2 j⟩
  show accAt V c t.val t.isLt (ix2 p nn)
    = Cert.Spec.mmAt (V c main_arg0) (V c main_v0) ((((cfg1.win 2).blk t).view.emb (ix2 p nn)) 0) ((((cfg1.win 2).blk t).view.emb (ix2 p nn)) 1)
  exact acc_flush_apply V c t ht p nn _ _
    (by show win1_2.index t (0 : Fin 2) * 1024 + 1 * p.val = _; omega)
    (by show win1_2.index t (1 : Fin 2) * 2048 + 1 * nn.val = _; omega)

/-- An entry of the result array is in point t's block iff each coordinate is in the block's range on its axis. -/
theorem mem_blk (t : Fin cfg1.N) (i : S8192x4096.Idx) :
    i ∈ ((cfg1.win 2).blk t).view.set ↔ ∀ a : Fin 2, win1_2.index t a * S1024x2048.size a ≤ (i a).val
      ∧ (i a).val < win1_2.index t a * S1024x2048.size a + S1024x2048.size a := by
  show i ∈ ((View.whole main_v1).slice (win1_2.rect t)).set ↔ _
  rw [View.set_slice_whole, Rect.mem_set_unit]
  exact Iff.rfl

/-- Every entry (r, cc) of the result array is in the block written back at point 8 (r / 1024) + 4 (cc / 2048) + 3. -/
theorem cover (i : S8192x4096.Idx) :
    ∃ t : Fin cfg1.N, (cfg1.win 2).flush t = true ∧ i ∈ ((cfg1.win 2).blk t).view.set := by
  have hN : cfg1.N = 64 := N_1
  have hi0 : (i 0).val < 8192 := idx2_lt0 i
  have hi1 : (i 1).val < 4096 := idx2_lt1 i
  obtain ⟨t, tv⟩ : ∃ t : Fin cfg1.N, t.val = 8 * ((i 0).val / 1024) + 4 * ((i 1).val / 2048) + 3 :=
    ⟨⟨8 * ((i 0).val / 1024) + 4 * ((i 1).val / 2048) + 3, by omega⟩, rfl⟩
  obtain ⟨-, -, -, -, e4, e5⟩ := idx_facts t
  refine ⟨t, (flush1_2 t).mpr (by omega), ?_⟩
  rw [mem_blk]
  intro a
  match a with
  | ⟨0, _⟩ =>
    show win1_2.index t (0 : Fin 2) * 1024 ≤ (i 0).val ∧ (i 0).val < win1_2.index t (0 : Fin 2) * 1024 + 1024
    omega
  | ⟨1, _⟩ =>
    show win1_2.index t (1 : Fin 2) * 2048 ≤ (i 1).val ∧ (i 1).val < win1_2.index t (1 : Fin 2) * 2048 + 2048
    omega

end

end Product

open Product

/-- After the second launch's write-backs the result array is `Spec.mm` of the activations and the quantized weights as found. -/
theorem mm_final (V : (c : Dev nD) → (b : Ref sig .tc) → Buf (Elt Ideal) ((c : Thread nD τ).loc b)) (c : Dev nD) :
    (mdat (F := Ideal) V c).arrAt 2 cfg1.N = Cert.Spec.mm (V c main_arg0) (V c main_v0) :=
  (mdat (F := Ideal) V c).arrAt_eq_of_cover 2 (Cert.Spec.mm (V c main_arg0) (V c main_v0))
    (fun t hf => flushed_eq V c t hf) cover

end Cert.KernelIdeal.HandValue

end
-- ==== Proof.KI.Result.lean ====
/-
  The idealized kernel's run with its result named: every execution ends with the result array at the product of
  the activations with the transpose of the quantized weights, both read off the launch memory, and the argument
  arrays unchanged. The second launch finds the activations as launched (the first launch does not touch them) and
  the quantized weights at what the first launch wrote.
-/
import proofs.«140886_j3169685865296_1_alg».proof.Proof.KI.Run
import proofs.«140886_j3169685865296_1_alg».proof.Proof.KI.QuantValue
import proofs.«140886_j3169685865296_1_alg».proof.Proof.KI.MatmulValue

noncomputable section

namespace Cert.KernelIdeal.HandValue

open Cert.KernelIdeal Cert.KernelIdeal.Gen Cert.KernelIdeal.Hand
open Idealize.ShloMosaic Idealize.ShloMosaic.TcCoe Idealize.SL.Sem

variable (m : (ℓ : Loc nD τ sig) → Buf (Elt Ideal) ℓ) (ρ : Dev nD → PrngReg)

/-- What the result array ends holding, as one function of the two argument arrays at launch. -/
theorem result_eq (c : Dev nD) :
    (mdat (F := Ideal) (V1 m) c).arrAt 2 cfg1.N
      = Cert.Spec.mm (m ((c.tc : Thread nD τ).loc main_arg0)) (Cert.Spec.quant (m ((c.tc : Thread nD τ).loc main_arg1))) := by
  rw [mm_final, V1_arg0, V1_v0, quant_final]

theorem run_value : θ_run defs (onTc (τ := τ) (main (F := Ideal))) ⟨m, fun _ => 0, ρ⟩ (fun r => ∀ c : Dev nD,
      r.2.mem ((c.tc : Thread nD τ).loc main_v1)
        = Cert.Spec.mm (m ((c.tc : Thread nD τ).loc main_arg0)) (Cert.Spec.quant (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => ⟨(h c).1.trans (result_eq m c), (h c).2⟩) (run_result (F := Ideal) m ρ)

end Cert.KernelIdeal.HandValue

end
-- ==== Proof.RefValue.lean ====
/-
  The reference over the extended reals: its one result is the product of the activations with the transpose of
  the ternary quantization of the weights, the same two functions the kernel's launches compute
  (the host's abs, row sum, divide, maximum, round-half-even, clamp, multiply, transpose and dot_general read entry by entry).
-/
import proofs.«140886_j3169685865296_1_alg».proof.Proof.Gen.ReferenceIdeal.Run
import proofs.«140886_j3169685865296_1_alg».proof.Proof.Gen.ReferenceIdeal.Read
import proofs.«140886_j3169685865296_1_alg».proof.Proof.Spec
import Idealize.ShloMosaic.Lib.ValueIdx
import Idealize.ShloMosaic.PureOps.Ideal.Laws

noncomputable section

open scoped BigOperators

namespace Cert.ReferenceIdeal.RefValue

open Cert.ReferenceIdeal Cert.ReferenceIdeal.Gen Cert.ReferenceIdeal.Read
open Idealize.ShloMosaic Idealize.ShloMosaic.ValueIdx

/-! ### The reference's index functions at coordinates -/

/-- The left operand of the contraction is read at row `p`, column `k`. -/
theorem lidx_eq (p : Fin 8192) (n k : Fin 4096) : lidx_main_v13 (ix2 p n) k = ix2 p k :=
  funext fun a => Fin.ext (by match a with | ⟨0, _⟩ => rfl | ⟨1, _⟩ => rfl)

/-- The right operand of the contraction is read at row `k`, column `n`. -/
theorem ridx_eq (p : Fin 8192) (n k : Fin 4096) : ridx_main_v13 (ix2 p n) k = ix2 k n :=
  funext fun a => Fin.ext (by match a with | ⟨0, _⟩ => rfl | ⟨1, _⟩ => rfl)

/-- The transpose swaps the two coordinates. -/
theorem tidx_eq (k n : Fin 4096) : idx_main_v12 (ix2 k n) = ix2 n k :=
  funext fun a => Fin.ext (by match a with | ⟨0, _⟩ => rfl | ⟨1, _⟩ => rfl)

/-- The broadcast of the column of scales reads row `r`'s one entry. -/
theorem bidx6_eq (r c : Fin 4096) : idx_main_v6 (ix2 r c) = ix2 r (0 : Fin 1) :=
  funext fun a => Fin.ext (by match a with | ⟨0, _⟩ => rfl | ⟨1, _⟩ => rfl)

/-- The second broadcast of the same column, the multiplier, reads the same entry. -/
theorem bidx10_eq (r c : Fin 4096) : idx_main_v10 (ix2 r c) = ix2 r (0 : Fin 1) :=
  funext fun a => Fin.ext (by match a with | ⟨0, _⟩ => rfl | ⟨1, _⟩ => rfl)

/-- The row sum's summand `k` of row `r` is the entry `(r, k)`. -/
theorem ridx1_eq (r : Fin 4096) (k : Fin 4096) : idx_main_v1 (idx_main_v2 (ix2 r (0 : Fin 1))) k = ix2 r k :=
  funext fun a => Fin.ext (by match a with | ⟨0, _⟩ => rfl | ⟨1, _⟩ => rfl)

/-! ### The scale of a row, and a quantized entry -/

/-- The clamped mean of row `r`'s absolute values is `Spec.rowScale w r`. -/
theorem rowScale_eq (w : (⟨S4096x4096, .f32⟩ : BufTy).Contents (Elt Ideal)) (r : Fin 4096) :
    val_main_v5 (F := Ideal) w (ix2 r (0 : Fin 1)) = Cert.Spec.rowScale w r := by
  rw [val_main_v5_apply, val_main_call0_v1_apply, val_main_call0_v0_apply, val_main_cst_1_apply,
    val_main_v4_apply, val_main_v3_apply, val_main_cst_0_apply, val_main_v2_apply, val_main_v1_apply,
    val_main_cst_apply]
  simp only [val_main_v0_apply, ridx1_eq, Ideal.ofBits_def, Ideal.hostDivf_def, Ideal.maximumf_def,
    Ideal.hostAbsf_def, Ideal.ofBits_zero_f32, zero_add]
  rfl

/-- The entry `(r, c)` of the scaled, rounded and clamped matrix is `Spec.quantAt w r c`. -/
theorem quantAt_eq (w : (⟨S4096x4096, .f32⟩ : BufTy).Contents (Elt Ideal)) (r c : Fin 4096) :
    val_main_v11 (F := Ideal) w (ix2 r c) = Cert.Spec.quantAt w r c := by
  rw [val_main_v11_apply, val_main_v9_apply, val_main_call2_v4_apply, val_main_call2_v3_apply,
    val_main_cst_3_apply, val_main_call2_v2_apply, val_main_call2_v1_apply, val_main_call2_v0_apply,
    val_main_cst_2_apply, val_main_v8_apply, val_main_v7_apply, val_main_v6_apply, val_main_v10_apply,
    bidx6_eq, bidx10_eq, rowScale_eq]
  simp only [Ideal.ofBits_def, Ideal.hostDivf_def, Ideal.maximumf_def, Ideal.minimumf_def, Ideal.mulf_def,
    Ideal.hostUnary_roundeven_def]
  rfl

/-- The reference's last stage is `Spec.mm x (Spec.quant w)`. -/
theorem ref_eq (x : (⟨S8192x4096, .f32⟩ : BufTy).Contents (Elt Ideal)) (w : (⟨S4096x4096, .f32⟩ : BufTy).Contents (Elt Ideal)) :
    val_main_v13 (F := Ideal) x w = Cert.Spec.mm x (Cert.Spec.quant w) := by
  funext i
  obtain ⟨p, n, rfl⟩ : ∃ (p : Fin 8192) (n : Fin 4096), i = ix2 p n := ⟨i 0, i 1, eq_ix2 i⟩
  rw [val_main_v13_apply]
  unfold Cert.Spec.mm Cert.Spec.mmAt
  refine Finset.sum_congr rfl fun k _ => ?_
  rw [lidx_eq, ridx_eq, val_main_v12_apply, tidx_eq, quantAt_eq]
  rfl

end Cert.ReferenceIdeal.RefValue

end
-- ==== Proof.lean ====
/-
  A linear layer with ternary weights: y = x · Qᵀ where Q is the row-wise ternary quantization of the weight
  matrix (each row's scale is the mean of its absolute values, floored at 1e-5; an entry is round-half-even of
  w / scale, clamped to [-1, 1], times the scale). The kernel computes Q in one launch (eight row tiles) and the
  product in a second (an 8 x 2 grid of output tiles, each accumulated over four contraction steps in a scratch
  buffer); the reference does both with whole-array host operations. Over the extended reals the two agree entry
  by entry: Q is the same function on both sides, and the four partial sums over column ranges of 1024 are the
  one sum over 4096 columns, addition being associative and commutative there (no finiteness of the inputs is used).
  The frames: each program runs to the end from any memory and leaves both argument arrays as launched; for the
  kernel, at the bit-level instance and the ideal one alike, by running the two launches one after the other with
  the accumulator's contents carried from grid point to grid point as the second launch's invariant.
  The idealization rewrote nothing, so its preservation claim is empty.
-/
import proofs.«140886_j3169685865296_1_alg».proof.Defs
import proofs.«140886_j3169685865296_1_alg».proof.Proof.Gen.Kernel
import proofs.«140886_j3169685865296_1_alg».proof.Proof.Gen.KernelIdeal
import proofs.«140886_j3169685865296_1_alg».proof.Proof.Gen.ReferenceIdeal
import proofs.«140886_j3169685865296_1_alg».proof.Proof.Gen.Pre_finite_inputs
import proofs.«140886_j3169685865296_1_alg».proof.Proof.Gen.ReferenceIdeal.Run
import proofs.«140886_j3169685865296_1_alg».proof.Proof.K.Run
import proofs.«140886_j3169685865296_1_alg».proof.Proof.KI.Result
import proofs.«140886_j3169685865296_1_alg».proof.Proof.RefValue
import Idealize.ShloMosaic.Adequacy
import Idealize.ShloMosaic.Init

noncomputable section

namespace Cert.Proof

open Idealize.ShloMosaic Idealize.SL.Sem

theorem frame_kernel : @Cert.frame_Kernel Cert.Kernel.Gen.facts Cert.Pre_finite_inputs.Gen.facts :=
  fun m ρ _ => Cert.Kernel.Hand.frame (F := Bits) m ρ

theorem frame_kernelIdeal : @Cert.frame_KernelIdeal Cert.KernelIdeal.Gen.facts Cert.Pre_finite_inputs.Gen.facts :=
  fun m ρ _ => Cert.KernelIdeal.Hand.frame (F := Ideal) m ρ

theorem frame_reference : @Cert.frame_ReferenceIdeal Cert.ReferenceIdeal.Gen.facts Cert.Pre_finite_inputs.Gen.facts :=
  fun m ρ _ => (θ_run Cert.ReferenceIdeal.defs _ _).mono (fun _ h c => (h c).2) (Cert.ReferenceIdeal.Value.run (F := Ideal) m ρ)

/-- Both runs end with the result at the same function of arguments that agree. -/
theorem algebraic : @Cert.algebraic_KernelIdeal_ReferenceIdeal Cert.KernelIdeal.Gen.facts Cert.ReferenceIdeal.Gen.facts Cert.Pre_finite_inputs.Gen.facts := by
  intro m ρ m' ρ' _ hagree
  refine ⟨fun c => Cert.Spec.mm (m ((c.tc : Thread Cert.KernelIdeal.nD Cert.KernelIdeal.τ).loc Cert.KernelIdeal.main_arg0))
      (Cert.Spec.quant (m ((c.tc : Thread Cert.KernelIdeal.nD Cert.KernelIdeal.τ).loc Cert.KernelIdeal.main_arg1))),
    Cert.KernelIdeal.HandValue.run_value m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v13_eq, Cert.ReferenceIdeal.RefValue.ref_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
